-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S_ : Shape := ⟨0, ![]⟩

class Facts : Prop where
  bcast_S_S16x256x96 : S_.BroadcastsInDim S16x256x96 (![] : Fin 0 → Fin S16x256x96.rank)
  reducesTo_S16x256x96_S_d0_1_2 : S16x256x96.ReducesTo [0, 1, 2] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S256x128 .f32) (main_arg8 : FVec F S96x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S96x128 .f32 := Host.absf main_arg8
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg7 : FVec F S256x128 .f32) (main_arg8 : FVec F S96x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16x256x96 .f32) (main_arg1 : FVec F S96x128 .f32) (main_arg2 : FVec F S128 .f32) (main_arg3 : FVec F S384x128 .f32) (main_arg4 : FVec F S128 .f32) (main_arg5 : FVec F S128 .f32) (main_arg6 : FVec F S128 .f32) (main_arg7 : FVec F S256x128 .f32) (main_arg8 : FVec F S96x128 .f32) : IVec S_ 1 :=
  let main_v0 : FVec F S16x256x96 .f32 := Host.absf main_arg0
  let main_cst : FVec F S_ .f32 := constant S_ .f32 0x7F800000#32
  let main_v1 : FVec F S16x256x96 .f32 := broadcastInDim S16x256x96 ![] bcast_S_S16x256x96 main_cst
  let main_v2 : IVec S16x256x96 1 := cmpf .olt main_v0 main_v1
  let main_c : IVec S_ 1 := constantI S_ 1 1#1
  let main_v3 : IVec S_ 1 := (fun x v => Host.reduce IntOp.andi x v reducesTo_S16x256x96_S_d0_1_2 h_S_) main_v2 main_c
  let main_v4 : FVec F S96x128 .f32 := Host.absf main_arg1
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_v13 main_v16
-- ==== Kernel.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S1x128 : Shape := ⟨2, ![1, 128]⟩
abbrev S16x256x96x128 : Shape := ⟨4, ![16, 256, 96, 128]⟩
abbrev S1x64x96 : Shape := ⟨3, ![1, 64, 96]⟩
abbrev S64x128 : Shape := ⟨2, ![64, 128]⟩
abbrev S1x64x96x128 : Shape := ⟨4, ![1, 64, 96, 128]⟩
abbrev S64x96 : Shape := ⟨2, ![64, 96]⟩
abbrev S128x128 : Shape := ⟨2, ![128, 128]⟩
abbrev S64x1x128 : Shape := ⟨3, ![64, 1, 128]⟩
abbrev S1x96x128 : Shape := ⟨3, ![1, 96, 128]⟩
abbrev S64x96x128 : Shape := ⟨3, ![64, 96, 128]⟩
abbrev S64x96x1 : Shape := ⟨3, ![64, 96, 1]⟩
abbrev S1x1x128 : Shape := ⟨3, ![1, 1, 128]⟩

abbrev nBuf : Space → Nat
  | .hbm => 14
  | .vmem => 13
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S16x256x96x128, .f32⟩
  | .local _ .vmem, ⟨0, _⟩ => ⟨S1x64x96, .f32⟩
  | .local _ .vmem, ⟨1, _⟩ => ⟨S1x64x96, .f32⟩
  | .local _ .vmem, ⟨2, _⟩ => ⟨S96x128, .f32⟩
  | .local _ .vmem, ⟨3, _⟩ => ⟨S1x128, .f32⟩
  | .local _ .vmem, ⟨4, _⟩ => ⟨S384x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S64x128, .f32⟩
  | .local _ .vmem, ⟨9, _⟩ => ⟨S64x128, .f32⟩
  | .local _ .vmem, ⟨10, _⟩ => ⟨S96x128, .f32⟩
  | .local _ .vmem, ⟨11, _⟩ => ⟨S1x64x96x128, .f32⟩
  | .local _ .vmem, ⟨12, _⟩ => ⟨S1x64x96x128, .f32⟩
  | _, _ => ⟨S16x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S128_S1x128 : S128.ShapeCasts S1x128
  inb_S1x64x96_S1x64x96_0_0_0 : ∀ a, (![0, 0, 0] : Fin 3 → Nat) a + S1x64x96.size a ≤ S1x64x96.size a
  h_S1x64x96 : 0 < S1x64x96.numel
  shapeCasts_S1x64x96_S64x96 : S1x64x96.ShapeCasts S64x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S64x128_S64x128_0_0 : ∀ a, (![0, 0] : Fin 2 → Nat) a + S64x128.size a ≤ S64x128.size a
  h_S64x128 : 0 < S64x128.numel
  shapeCasts_S64x128_S64x1x128 : S64x128.ShapeCasts S64x1x128
  shapeCasts_S96x128_S1x96x128 : S96x128.ShapeCasts S1x96x128
  broadcasts_S64x1x128_S64x96x128 : S64x1x128.Broadcasts S64x96x128
  broadcasts_S1x96x128_S64x96x128 : S1x96x128.Broadcasts S64x96x128
  reduces_S64x96x128_S64x96 : S64x96x128.Reduces [2] S64x96
  shapeCasts_S64x96_S64x96x1 : S64x96.ShapeCasts S64x96x1
  broadcasts_S64x96x1_S64x96x128 : S64x96x1.Broadcasts S64x96x128
  shapeCasts_S1x128_S1x1x128 : S1x128.ShapeCasts S1x1x128
  broadcasts_S1x1x128_S64x96x128 : S1x1x128.Broadcasts S64x96x128
  inb_S1x64x96x128_S1x64x96x128_0_0_0_0 : ∀ a, (![0, 0, 0, 0] : Fin 4 → Nat) a + S1x64x96x128.size a ≤ S1x64x96x128.size a
  h_S1x64x96x128 : 0 < S1x64x96x128.numel
  shapeCasts_S1x64x96x128_S64x96x128 : S1x64x96x128.ShapeCasts S64x96x128
  shapeCasts_S64x96x128_S1x64x96x128 : S64x96x128.ShapeCasts S1x64x96x128
  dot_S64x96_S96x128_S64x128_1_0_0_1_n_n_wf : DotDims.WF S64x96 S96x128 S64x128 [1] [0] [0] [1] [] []
  dot_S64x128_S128x128_S64x128_1_0_0_1_n_n_wf : DotDims.WF S64x128 S128x128 S64x128 [1] [0] [0] [1] [] []
  dot_S96x128_S128x128_S96x128_1_0_0_1_n_n_wf : DotDims.WF S96x128 S128x128 S96x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x96.size a ≤ S16x256x96.size a
  hwx0_0 : ∀ i : grid0.Coords, EltTy.bits .f32 = 32 ∨ (Rect.block (s := S16x256x96) S1x64x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S256x128.size a
  hwx0_7 : ∀ i : grid0.Coords, EltTy.bits .f32 = 32 ∨ (Rect.block (s := S256x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S96x128.size a ≤ S96x128.size a
  hwx0_8 : ∀ i : grid0.Coords, EltTy.bits .f32 = 32 ∨ (Rect.block (s := S96x128) S96x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x96x128.size a ≤ S16x256x96x128.size a
  hwx0_9 : ∀ i : grid0.Coords, EltTy.bits .f32 = 32 ∨ (Rect.block (s := S16x256x96x128) S1x64x96x128.size (cc0_transform_9 i) (hinb0_9 i)).WholeWords (EltTy.packing .f32)

variable [Facts₀]

def dot_S64x96_S96x128_S64x128_1_0_0_1_n_n : DotDims S64x96 S96x128 S64x128 where
  lhsContracting := [1]
  rhsContracting := [0]
  lhsNonContracting := [0]
  rhsNonContracting := [1]
  lhsBatch := []
  rhsBatch := []
  wf := dot_S64x96_S96x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf

abbrev win0_0 : Pipeline.Window sig grid0 :=
  Pipeline.Window.ofSpec (Memref.whole main_arg0) S1x64x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S96x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64x96x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S16x256x128 : Shape := ⟨3, ![16, 256, 128]⟩
abbrev S1x1x128 : Shape := ⟨3, ![1, 1, 128]⟩
abbrev S128x128 : Shape := ⟨2, ![128, 128]⟩
abbrev S16x256x1x128 : Shape := ⟨4, ![16, 256, 1, 128]⟩
abbrev S1x256x1x128 : Shape := ⟨4, ![1, 256, 1, 128]⟩
abbrev S1x1x96x128 : Shape := ⟨4, ![1, 1, 96, 128]⟩
abbrev S16x256x96x128 : Shape := ⟨4, ![16, 256, 96, 128]⟩
abbrev S1x1x1x128 : Shape := ⟨4, ![1, 1, 1, 128]⟩
abbrev S_ : Shape := ⟨0, ![]⟩
abbrev S16x256x96x1 : Shape := ⟨4, ![16, 256, 96, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S16x256x128, .f32⟩
  | .hbm, ⟨10, _⟩ => ⟨S1x1x128, .f32⟩
  | .hbm, ⟨11, _⟩ => ⟨S16x256x128, .f32⟩
  | .hbm, ⟨12, _⟩ => ⟨S16x256x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S16x256x128, .f32⟩
  | .hbm, ⟨17, _⟩ => ⟨S16x256x1x128, .f32⟩
  | .hbm, ⟨18, _⟩ => ⟨S256x128, .f32⟩
  | .hbm, ⟨19, _⟩ => ⟨S1x256x1x128, .f32⟩
  | .hbm, ⟨20, _⟩ => ⟨S16x256x1x128, .f32⟩
  | .hbm, ⟨21, _⟩ => ⟨S16x256x1x128, .f32⟩
  | .hbm, ⟨22, _⟩ => ⟨S96x128, .f32⟩
  | .hbm, ⟨23, _⟩ => ⟨S1x1x96x128, .f32⟩
  | .hbm, ⟨24, _⟩ => ⟨S16x256x96x128, .f32⟩
  | .hbm, ⟨25, _⟩ => ⟨S16x256x96x128, .f32⟩
  | .hbm, ⟨26, _⟩ => ⟨S16x256x96x128, .f32⟩
  | .hbm, ⟨27, _⟩ => ⟨S1x1x1x128, .f32⟩
  | .hbm, ⟨28, _⟩ => ⟨S16x256x96x128, .f32⟩
  | .hbm, ⟨29, _⟩ => ⟨S16x256x96x128, .f32⟩
  | .hbm, ⟨30, _⟩ => ⟨S_, .f32⟩
  | .hbm, ⟨31, _⟩ => ⟨S16x256x96x128, .f32⟩
  | .hbm, ⟨32, _⟩ => ⟨S16x256x96x128, .f32⟩
  | .hbm, ⟨33, _⟩ => ⟨S_, .f32⟩
  | .hbm, ⟨34, _⟩ => ⟨S16x256x96, .f32⟩
  | .hbm, ⟨35, _⟩ => ⟨S16x256x96x1, .f32⟩
  | .hbm, ⟨36, _⟩ => ⟨S_, .f32⟩
  | .hbm, ⟨37, _⟩ => ⟨S16x256x96x1, .f32⟩
  | .hbm, ⟨38, _⟩ => ⟨S16x256x96x1, .f32⟩
  | .hbm, ⟨39, _⟩ => ⟨S16x256x96x128, .f32⟩
  | .hbm, ⟨40, _⟩ => ⟨S16x256x96x128, .f32⟩
  | .hbm, ⟨41, _⟩ => ⟨S16x256x96x128, .f32⟩
  | .hbm, ⟨42, _⟩ => ⟨S_, .f32⟩
  | .hbm, ⟨43, _⟩ => ⟨S16x256x96, .f32⟩
  | .hbm, ⟨44, _⟩ => ⟨S16x256x96x1, .f32⟩
  | .hbm, ⟨45, _⟩ => ⟨S_, .f32⟩
  | .hbm, ⟨46, _⟩ => ⟨S16x256x96x1, .f32⟩
  | .hbm, ⟨47, _⟩ => ⟨S16x256x96x1, .f32⟩
  | .hbm, ⟨48, _⟩ => ⟨S16x256x96x128, .f32⟩
  | .hbm, ⟨49, _⟩ => ⟨S16x256x96x128, .f32⟩
  | .hbm, ⟨50, _⟩ => ⟨S_, .f32⟩
  | .hbm, ⟨51, _⟩ => ⟨S16x256x96x1, .f32⟩
  | .hbm, ⟨52, _⟩ => ⟨S16x256x96x1, .f32⟩
  | .hbm, ⟨53, _⟩ => ⟨S16x256x96x1, .f32⟩
  | .hbm, ⟨54, _⟩ => ⟨S16x256x96x128, .f32⟩
  | .hbm, ⟨55, _⟩ => ⟨S16x256x96x128, .f32⟩
  | .hbm, ⟨56, _⟩ => ⟨S1x1x1x128, .f32⟩
  | .hbm, ⟨57, _⟩ => ⟨S16x256x96x128, .f32⟩
  | .hbm, ⟨58, _⟩ => ⟨S16x256x96x128, .f32⟩
  | .hbm, ⟨59, _⟩ => ⟨S1x1x1x128, .f32⟩
  | .hbm, ⟨60, _⟩ => ⟨S16x256x96x128, .f32⟩
  | .hbm, ⟨61, _⟩ => ⟨S16x256x96x128, .f32⟩
  | _, _ => ⟨S16x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x256x128_0_1_2 : S1x1x128.BroadcastsInDim S16x256x128 (![0, 1, 2] : Fin 3 → Fin S16x256x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S16x256x128_S16x256x1x128_0_1_3 : S16x256x128.BroadcastsInDim S16x256x1x128 (![0, 1, 3] : Fin 3 → Fin S16x256x1x128.rank)
  bcast_S256x128_S1x256x1x128_1_3 : S256x128.BroadcastsInDim S1x256x1x128 (![1, 3] : Fin 2 → Fin S1x256x1x128.rank)
  bcast_S1x256x1x128_S16x256x1x128_0_1_2_3 : S1x256x1x128.BroadcastsInDim S16x256x1x128 (![0, 1, 2, 3] : Fin 4 → Fin S16x256x1x128.rank)
  bcast_S96x128_S1x1x96x128_2_3 : S96x128.BroadcastsInDim S1x1x96x128 (![2, 3] : Fin 2 → Fin S1x1x96x128.rank)
  bcast_S16x256x1x128_S16x256x96x128_0_1_2_3 : S16x256x1x128.BroadcastsInDim S16x256x96x128 (![0, 1, 2, 3] : Fin 4 → Fin S16x256x96x128.rank)
  bcast_S1x1x96x128_S16x256x96x128_0_1_2_3 : S1x1x96x128.BroadcastsInDim S16x256x96x128 (![0, 1, 2, 3] : Fin 4 → Fin S16x256x96x128.rank)
  bcast_S128_S1x1x1x128_3 : S128.BroadcastsInDim S1x1x1x128 (![3] : Fin 1 → Fin S1x1x1x128.rank)
  bcast_S1x1x1x128_S16x256x96x128_0_1_2_3 : S1x1x1x128.BroadcastsInDim S16x256x96x128 (![0, 1, 2, 3] : Fin 4 → Fin S16x256x96x128.rank)
  bcast_S_S16x256x96x128 : S_.BroadcastsInDim S16x256x96x128 (![] : Fin 0 → Fin S16x256x96x128.rank)
  reducesTo_S16x256x96x128_S16x256x96_d3 : S16x256x96x128.ReducesTo [3] S16x256x96
  h_S_ : 0 < S_.numel
  bcast_S16x256x96_S16x256x96x1_0_1_2 : S16x256x96.BroadcastsInDim S16x256x96x1 (![0, 1, 2] : Fin 3 → Fin S16x256x96x1.rank)
  bcast_S_S16x256x96x1 : S_.BroadcastsInDim S16x256x96x1 (![] : Fin 0 → Fin S16x256x96x1.rank)
  bcast_S16x256x96x1_S16x256x96x128_0_1_2_3 : S16x256x96x1.BroadcastsInDim S16x256x96x128 (![0, 1, 2, 3] : Fin 4 → Fin S16x256x96x128.rank)
  dot_S16x256x96_S96x128_S16x256x128_2_0_01_1_n_n_wf : DotDims.WF S16x256x96 S96x128 S16x256x128 [2] [0] [0, 1] [1] [] []
  dot_S16x256x128_S128x128_S16x256x128_2_0_01_1_n_n_wf : DotDims.WF S16x256x128 S128x128 S16x256x128 [2] [0] [0, 1] [1] [] []
  dot_S256x128_S128x128_S256x128_1_0_0_1_n_n_wf : DotDims.WF S256x128 S128x128 S256x128 [1] [0] [0] [1] [] []
  dot_S96x128_S128x128_S96x128_1_0_0_1_n_n_wf : DotDims.WF S96x128 S128x128 S96x128 [1] [0] [0] [1] [] []

variable [Facts₀]

def dot_S16x256x96_S96x128_S16x256x128_2_0_01_1_n_n : DotDims S16x256x96 S96x128 S16x256x128 where
  lhsContracting := [2]
  rhsContracting := [0]
  lhsNonContracting := [0, 1]
  rhsNonContracting := [1]
  lhsBatch := []
  rhsBatch := []
  wf := dot_S16x256x96_S96x128_S16x256x128_2_0_01_1_n_n_wf
def dot_S16x256x128_S128x128_S16x256x128_2_0_01_1_n_n : DotDims S16x256x128 S128x128 S16x256x128 where
  lhsContracting := [2]
  rhsContracting := [0]
  lhsNonContracting := [0, 1]
  rhsNonContracting := [1]
  lhsBatch := []
  rhsBatch := []
  wf := dot_S16x256x128_S128x128_S16x256x128_2_0_01_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf

class Facts : Prop extends Facts₀ where

variable [Facts]
-- ==== Proof.KernelMatmul.lean ====
/-
  The kernel's three matrix products, each read at an entry.

  The body multiplies a 64-row block of the series by the projection weight (contracting 96 time samples), two 64-row
  blocks by a 128 x 128 slab of the fused weight, and the 96-row time embedding by the third slab. Each product runs
  into a zero accumulator, so at the exact instance entry (p, k) is the plain sum over the contracted index h of the
  left factor at (p, h) times the right factor at (h, k).
-/
import proofs.«143036_g19224273616920_pilotgen1_646_2_alg».proof.Proof.Gen.KernelIdeal
import Idealize.ShloMosaic.PureOps.Ideal.Laws
import Idealize.ShloMosaic.Lib.ValueIdx

noncomputable section

namespace Cert.KernelIdeal.BlockValue

open Cert.KernelIdeal Idealize.ShloMosaic Idealize.ShloMosaic.TcCoe Idealize.ShloMosaic.ValueIdx

/-! ### A 64 x 96 block of the series against the 96 x 128 projection weight -/

theorem lhs_projMul_0 (i : S64x128.Idx) (q : dot_S64x96_S96x128_S64x128_1_0_0_1_n_n.contr.Idx) :
    (dot_S64x96_S96x128_S64x128_1_0_0_1_n_n.lhsIdx i q 0).val = (i 0).val := by
  unfold DotDims.lhsIdx
  rw [dif_neg (show ¬(0 : Fin S64x96.rank) ∈ dot_S64x96_S96x128_S64x128_1_0_0_1_n_n.lhsBatch by decide), dif_pos (show (0 : Fin S64x96.rank) ∈ dot_S64x96_S96x128_S64x128_1_0_0_1_n_n.lhsNonContracting by decide)]
  rfl
theorem lhs_projMul_1 (i : S64x128.Idx) (q : dot_S64x96_S96x128_S64x128_1_0_0_1_n_n.contr.Idx) :
    (dot_S64x96_S96x128_S64x128_1_0_0_1_n_n.lhsIdx i q 1).val = (q ⟨0, by decide⟩).val :=
  dot_S64x96_S96x128_S64x128_1_0_0_1_n_n.lhsIdx_val_of_single rfl i q
theorem rhs_projMul_0 (i : S64x128.Idx) (q : dot_S64x96_S96x128_S64x128_1_0_0_1_n_n.contr.Idx) :
    (dot_S64x96_S96x128_S64x128_1_0_0_1_n_n.rhsIdx i q 0).val = (q ⟨0, by decide⟩).val :=
  dot_S64x96_S96x128_S64x128_1_0_0_1_n_n.rhsIdx_val_of_single rfl i q
theorem rhs_projMul_1 (i : S64x128.Idx) (q : dot_S64x96_S96x128_S64x128_1_0_0_1_n_n.contr.Idx) :
    (dot_S64x96_S96x128_S64x128_1_0_0_1_n_n.rhsIdx i q 1).val = (i 1).val := by
  unfold DotDims.rhsIdx
  rw [dif_neg (show ¬(1 : Fin S96x128.rank) ∈ dot_S64x96_S96x128_S64x128_1_0_0_1_n_n.rhsBatch by decide), dif_pos (show (1 : Fin S96x128.rank) ∈ dot_S64x96_S96x128_S64x128_1_0_0_1_n_n.rhsNonContracting by decide)]
  rfl

/-- Entry (p, k) of the product into a zero accumulator: row p of the left factor against column k of the right. -/
theorem projMul_at (A : FVec Ideal S64x96 .f32) (B : FVec Ideal S96x128 .f32) (p : Fin 64) (k : Fin 128) :
    matmul dot_S64x96_S96x128_S64x128_1_0_0_1_n_n none A B (constant (F := Ideal) S64x128 .f32 0x00000000#32) (ix2 p k)
      = ∑ h : Fin 96, A (ix2 p h) * B (ix2 h k) := by
  show FloatOps.matmul dot_S64x96_S96x128_S64x128_1_0_0_1_n_n none A B (constant (F := Ideal) S64x128 .f32 0x00000000#32) (ix2 p k) = _
  rw [Ideal.matmul_constant_zero_apply, ← Equiv.sum_comp (ValueIdx.contrEquiv1 dot_S64x96_S96x128_S64x128_1_0_0_1_n_n 96 rfl rfl).symm]
  refine Finset.sum_congr rfl fun h _ => ?_
  have hk := ValueIdx.contrEquiv1_symm_val dot_S64x96_S96x128_S64x128_1_0_0_1_n_n 96 rfl rfl h
  have el : dot_S64x96_S96x128_S64x128_1_0_0_1_n_n.lhsIdx (ix2 p k) ((ValueIdx.contrEquiv1 dot_S64x96_S96x128_S64x128_1_0_0_1_n_n 96 rfl rfl).symm h) = ix2 p h := funext fun a => Fin.ext (by
    match a with
    | ⟨0, _⟩ => exact lhs_projMul_0 _ _
    | ⟨1, _⟩ => exact (lhs_projMul_1 _ _).trans hk)
  have er : dot_S64x96_S96x128_S64x128_1_0_0_1_n_n.rhsIdx (ix2 p k) ((ValueIdx.contrEquiv1 dot_S64x96_S96x128_S64x128_1_0_0_1_n_n 96 rfl rfl).symm h) = ix2 h k := funext fun a => Fin.ext (by
    match a with
    | ⟨0, _⟩ => exact (rhs_projMul_0 _ _).trans hk
    | ⟨1, _⟩ => exact rhs_projMul_1 _ _)
  rw [el, er]

/-! ### A 64 x 128 block against a 128 x 128 slab of the fused weight -/

theorem lhs_slabMul_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_slabMul_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_slabMul_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_slabMul_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- Entry (p, k) of the product into a zero accumulator: row p of the left factor against column k of the right. -/
theorem slabMul_at (A : FVec Ideal S64x128 .f32) (B : FVec Ideal S128x128 .f32) (p : Fin 64) (k : Fin 128) :
    matmul dot_S64x128_S128x128_S64x128_1_0_0_1_n_n none A B (constant (F := Ideal) S64x128 .f32 0x00000000#32) (ix2 p k)
      = ∑ h : Fin 128, A (ix2 p h) * B (ix2 h k) := by
  show FloatOps.matmul dot_S64x128_S128x128_S64x128_1_0_0_1_n_n none A B (constant (F := Ideal) S64x128 .f32 0x00000000#32) (ix2 p k) = _
  rw [Ideal.matmul_constant_zero_apply, ← Equiv.sum_comp (ValueIdx.contrEquiv1 dot_S64x128_S128x128_S64x128_1_0_0_1_n_n 128 rfl rfl).symm]
  refine Finset.sum_congr rfl fun h _ => ?_
  have hk := ValueIdx.contrEquiv1_symm_val dot_S64x128_S128x128_S64x128_1_0_0_1_n_n 128 rfl rfl h
  have el : dot_S64x128_S128x128_S64x128_1_0_0_1_n_n.lhsIdx (ix2 p k) ((ValueIdx.contrEquiv1 dot_S64x128_S128x128_S64x128_1_0_0_1_n_n 128 rfl rfl).symm h) = ix2 p h := funext fun a => Fin.ext (by
    match a with
    | ⟨0, _⟩ => exact lhs_slabMul_0 _ _
    | ⟨1, _⟩ => exact (lhs_slabMul_1 _ _).trans hk)
  have er : dot_S64x128_S128x128_S64x128_1_0_0_1_n_n.rhsIdx (ix2 p k) ((ValueIdx.contrEquiv1 dot_S64x128_S128x128_S64x128_1_0_0_1_n_n 128 rfl rfl).symm h) = ix2 h k := funext fun a => Fin.ext (by
    match a with
    | ⟨0, _⟩ => exact (rhs_slabMul_0 _ _).trans hk
    | ⟨1, _⟩ => exact rhs_slabMul_1 _ _)
  rw [el, er]

/-! ### The 96 x 128 time embedding against a 128 x 128 slab of the fused weight -/

theorem lhs_timeMul_0 (i : S96x128.Idx) (q : dot_S96x128_S128x128_S96x128_1_0_0_1_n_n.contr.Idx) :
    (dot_S96x128_S128x128_S96x128_1_0_0_1_n_n.lhsIdx i q 0).val = (i 0).val := by
  unfold DotDims.lhsIdx
  rw [dif_neg (show ¬(0 : Fin S96x128.rank) ∈ dot_S96x128_S128x128_S96x128_1_0_0_1_n_n.lhsBatch by decide), dif_pos (show (0 : Fin S96x128.rank) ∈ dot_S96x128_S128x128_S96x128_1_0_0_1_n_n.lhsNonContracting by decide)]
  rfl
theorem lhs_timeMul_1 (i : S96x128.Idx) (q : dot_S96x128_S128x128_S96x128_1_0_0_1_n_n.contr.Idx) :
    (dot_S96x128_S128x128_S96x128_1_0_0_1_n_n.lhsIdx i q 1).val = (q ⟨0, by decide⟩).val :=
  dot_S96x128_S128x128_S96x128_1_0_0_1_n_n.lhsIdx_val_of_single rfl i q
theorem rhs_timeMul_0 (i : S96x128.Idx) (q : dot_S96x128_S128x128_S96x128_1_0_0_1_n_n.contr.Idx) :
    (dot_S96x128_S128x128_S96x128_1_0_0_1_n_n.rhsIdx i q 0).val = (q ⟨0, by decide⟩).val :=
  dot_S96x128_S128x128_S96x128_1_0_0_1_n_n.rhsIdx_val_of_single rfl i q
theorem rhs_timeMul_1 (i : S96x128.Idx) (q : dot_S96x128_S128x128_S96x128_1_0_0_1_n_n.contr.Idx) :
    (dot_S96x128_S128x128_S96x128_1_0_0_1_n_n.rhsIdx i q 1).val = (i 1).val := by
  unfold DotDims.rhsIdx
  rw [dif_neg (show ¬(1 : Fin S128x128.rank) ∈ dot_S96x128_S128x128_S96x128_1_0_0_1_n_n.rhsBatch by decide), dif_pos (show (1 : Fin S128x128.rank) ∈ dot_S96x128_S128x128_S96x128_1_0_0_1_n_n.rhsNonContracting by decide)]
  rfl

/-- Entry (p, k) of the product into a zero accumulator: row p of the left factor against column k of the right. -/
theorem timeMul_at (A : FVec Ideal S96x128 .f32) (B : FVec Ideal S128x128 .f32) (p : Fin 96) (k : Fin 128) :
    matmul dot_S96x128_S128x128_S96x128_1_0_0_1_n_n none A B (constant (F := Ideal) S96x128 .f32 0x00000000#32) (ix2 p k)
      = ∑ h : Fin 128, A (ix2 p h) * B (ix2 h k) := by
  show FloatOps.matmul dot_S96x128_S128x128_S96x128_1_0_0_1_n_n none A B (constant (F := Ideal) S96x128 .f32 0x00000000#32) (ix2 p k) = _
  rw [Ideal.matmul_constant_zero_apply, ← Equiv.sum_comp (ValueIdx.contrEquiv1 dot_S96x128_S128x128_S96x128_1_0_0_1_n_n 128 rfl rfl).symm]
  refine Finset.sum_congr rfl fun h _ => ?_
  have hk := ValueIdx.contrEquiv1_symm_val dot_S96x128_S128x128_S96x128_1_0_0_1_n_n 128 rfl rfl h
  have el : dot_S96x128_S128x128_S96x128_1_0_0_1_n_n.lhsIdx (ix2 p k) ((ValueIdx.contrEquiv1 dot_S96x128_S128x128_S96x128_1_0_0_1_n_n 128 rfl rfl).symm h) = ix2 p h := funext fun a => Fin.ext (by
    match a with
    | ⟨0, _⟩ => exact lhs_timeMul_0 _ _
    | ⟨1, _⟩ => exact (lhs_timeMul_1 _ _).trans hk)
  have er : dot_S96x128_S128x128_S96x128_1_0_0_1_n_n.rhsIdx (ix2 p k) ((ValueIdx.contrEquiv1 dot_S96x128_S128x128_S96x128_1_0_0_1_n_n 128 rfl rfl).symm h) = ix2 h k := funext fun a => Fin.ext (by
    match a with
    | ⟨0, _⟩ => exact (rhs_timeMul_0 _ _).trans hk
    | ⟨1, _⟩ => exact rhs_timeMul_1 _ _)
  rw [el, er]

end Cert.KernelIdeal.BlockValue

end
-- ==== Proof.RowSpec.lean ====
/-
  The function both programs compute, for one output row.

  An output element is indexed by a batch entry, a node, a time step and a channel k (128 channels). Everything that
  depends on the first three coordinates enters the row through three vectors: the projected input row X (96 entries,
  the node's series for that batch entry), the node's embedding row NE and the time step's embedding row TE.

    proj h   = (sum over s of X s * Wp s h) + bp h
    pre  k   = (sum over h of proj h * W1 h k) + (sum over h of NE h * W2 h k) + bf k + (sum over h of TE h * W3 h k)
    act  k   = max (pre k) 0
    mean     = (sum over j of act j) / 128
    var      = (sum over j of (act j - mean)^2) / 128
    out  k   = (act k - mean) * rsqrt (var + eps) * gamma k + beta k

  W1, W2, W3 are the three 128-row slabs of the fused weight. Sums, products, max, quotient and rsqrt are the exact
  operations on the extended reals; the three float words (0, 128, eps) stay as words, since both programs print the
  same ones. The only place where the two programs differ in arithmetic is the order in which the bias bf and the time
  term join the sum; addition on the extended reals is commutative and associative, so no finiteness is needed.
-/
import Idealize.ShloMosaic.PureOps.Ideal
import Idealize.ShloMosaic.PureOps.Ideal.Laws
import Idealize.ShloMosaic.Lib.ValueIdx

noncomputable section

namespace Cert.PosEnc

open Idealize.ShloMosaic Idealize.ShloMosaic.ValueIdx

/-- The pre-activation of channel `k`: the projected row through the first slab, the node row through the second, the
    bias, then the time row through the third — in the order the kernel adds them. -/
def preact (X : Fin 96 → EReal) (Wp : Fin 96 → Fin 128 → EReal) (bp : Fin 128 → EReal)
    (W1 W2 W3 : Fin 128 → Fin 128 → EReal) (bf NE TE : Fin 128 → EReal) (k : Fin 128) : EReal :=
  (∑ h : Fin 128, ((∑ s : Fin 96, X s * Wp s h) + bp h) * W1 h k) + (∑ h : Fin 128, NE h * W2 h k) + bf k
    + ∑ h : Fin 128, TE h * W3 h k

/-- The same sum with the time term added before the bias: the order the reference adds them. -/
theorem preact_time_then_bias (X : Fin 96 → EReal) (Wp : Fin 96 → Fin 128 → EReal) (bp : Fin 128 → EReal)
    (W1 W2 W3 : Fin 128 → Fin 128 → EReal) (bf NE TE : Fin 128 → EReal) (k : Fin 128) :
    (∑ h : Fin 128, ((∑ s : Fin 96, X s * Wp s h) + bp h) * W1 h k) + (∑ h : Fin 128, NE h * W2 h k)
      + (∑ h : Fin 128, TE h * W3 h k) + bf k = preact X Wp bp W1 W2 W3 bf NE TE k := by
  unfold preact
  exact add_right_comm _ _ _

/-- The rectifier against the zero word. -/
def relu (a : EReal) : EReal := max a (Ideal.ofBits .f32 0x00000000#32)

/-- The mean of a row of 128 entries: its sum over the word of 128. -/
def rowMean (a : Fin 128 → EReal) : EReal := Ideal.div (∑ j : Fin 128, a j) (Ideal.ofBits .f32 0x43000000#32)

/-- Layer normalisation of a row `a` at channel `k`, with scale `g` and shift `be`. -/
def rowNorm (a g be : Fin 128 → EReal) (k : Fin 128) : EReal :=
  (a k - rowMean a)
      * Ideal.rsqrt (rowMean (fun j => (a j - rowMean a) * (a j - rowMean a)) + Ideal.ofBits .f32 0x3727C5AC#32)
      * g k
    + be k

/-- The output element of channel `k` in the row determined by `X`, `NE`, `TE`. -/
def out (X : Fin 96 → EReal) (Wp : Fin 96 → Fin 128 → EReal) (bp : Fin 128 → EReal)
    (W1 W2 W3 : Fin 128 → Fin 128 → EReal) (bf NE TE g be : Fin 128 → EReal) (k : Fin 128) : EReal :=
  rowNorm (fun j => relu (preact X Wp bp W1 W2 W3 bf NE TE j)) g be k

/-! ## The whole output array

The fused weight has 384 rows: rows 0–127 multiply the projected row, rows 128–255 the node embedding, rows 256–383 the
time embedding. -/

/-- Row `h` of the first slab. -/
abbrev slab1 (h : Fin 128) : Fin 384 := ⟨h.val, by omega⟩
/-- Row `h` of the second slab. -/
abbrev slab2 (h : Fin 128) : Fin 384 := ⟨128 + h.val, by omega⟩
/-- Row `h` of the third slab. -/
abbrev slab3 (h : Fin 128) : Fin 384 := ⟨256 + h.val, by omega⟩

/-- The output element at batch entry `b`, node `n`, time step `t`, channel `k`, of the nine argument arrays
    (series, projection weight and bias, fused weight and bias, scale, shift, node and time embeddings). -/
def outAt (x : (⟨3, ![16, 256, 96]⟩ : Shape).Idx → EReal) (wp : (⟨2, ![96, 128]⟩ : Shape).Idx → EReal)
    (bp : (⟨1, ![128]⟩ : Shape).Idx → EReal) (wf : (⟨2, ![384, 128]⟩ : Shape).Idx → EReal)
    (bf g be : (⟨1, ![128]⟩ : Shape).Idx → EReal) (ne : (⟨2, ![256, 128]⟩ : Shape).Idx → EReal)
    (te : (⟨2, ![96, 128]⟩ : Shape).Idx → EReal) (b : Fin 16) (n : Fin 256) (t : Fin 96) (k : Fin 128) : EReal :=
  out (fun s => x (ix3 b n s)) (fun s h => wp (ix2 s h)) (fun h => bp (ix1 h))
    (fun h j => wf (ix2 (slab1 h) j)) (fun h j => wf (ix2 (slab2 h) j)) (fun h j => wf (ix2 (slab3 h) j))
    (fun j => bf (ix1 j)) (fun h => ne (ix2 n h)) (fun h => te (ix2 t h)) (fun j => g (ix1 j)) (fun j => be (ix1 j)) k

/-- The output array: `outAt` at the four coordinates of the index. -/
def outArray (x : (⟨3, ![16, 256, 96]⟩ : Shape).Idx → EReal) (wp : (⟨2, ![96, 128]⟩ : Shape).Idx → EReal)
    (bp : (⟨1, ![128]⟩ : Shape).Idx → EReal) (wf : (⟨2, ![384, 128]⟩ : Shape).Idx → EReal)
    (bf g be : (⟨1, ![128]⟩ : Shape).Idx → EReal) (ne : (⟨2, ![256, 128]⟩ : Shape).Idx → EReal)
    (te : (⟨2, ![96, 128]⟩ : Shape).Idx → EReal) : (⟨4, ![16, 256, 96, 128]⟩ : Shape).Idx → EReal :=
  fun i => outAt x wp bp wf bf g be ne te (i 0) (i 1) (i 2) (i 3)

theorem outArray_ix4 (x : (⟨3, ![16, 256, 96]⟩ : Shape).Idx → EReal) (wp : (⟨2, ![96, 128]⟩ : Shape).Idx → EReal)
    (bp : (⟨1, ![128]⟩ : Shape).Idx → EReal) (wf : (⟨2, ![384, 128]⟩ : Shape).Idx → EReal)
    (bf g be : (⟨1, ![128]⟩ : Shape).Idx → EReal) (ne : (⟨2, ![256, 128]⟩ : Shape).Idx → EReal)
    (te : (⟨2, ![96, 128]⟩ : Shape).Idx → EReal) (b : Fin 16) (n : Fin 256) (t : Fin 96) (k : Fin 128) :
    outArray x wp bp wf bf g be ne te (ix4 b n t k) = outAt x wp bp wf bf g be ne te b n t k := rfl

end Cert.PosEnc

end
-- ==== Proof.BlockValue.lean ====
/-
  What one grid point writes, read at an index of its block.

  A grid point (batch entry, group of 64 nodes) holds the 64 x 96 block of the series, the 64 node-embedding rows of
  its group, and the whole of every other operand. Its output block has shape 1 x 64 x 96 x 128; the element at
  (0, p, t, k) depends on row p of the series block, row p of the node block and row t of the time embedding, and is the
  row function of `RowSpec` of those three rows. The body forms the four products, adds the two biases through
  row broadcasts, spreads the node part over the 96 time steps and the time part over the 64 rows, rectifies, and
  normalises over the 128 channels with two lane sums; each re-laying step read at an index picks coordinates, and each
  lane sum is a finite sum over the channel.
-/
import proofs.«143036_g19224273616920_pilotgen1_646_2_alg».proof.Proof.Gen.KernelIdeal.Value
import proofs.«143036_g19224273616920_pilotgen1_646_2_alg».proof.Proof.KernelMatmul
import proofs.«143036_g19224273616920_pilotgen1_646_2_alg».proof.Proof.RowSpec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.PosEnc
open Idealize.ShloMosaic Idealize.ShloMosaic.TcCoe Idealize.ShloMosaic.ValueIdx

/-- Two indices of one shape with the same coordinates are equal (each coordinate checked by computation). -/
macro "same_index" : tactic => `(tactic| (funext a; apply Fin.ext; fin_cases a <;> rfl))

/-! ## Re-laid pieces read at an index -/

/-- The series block without its leading unit axis: entry (p, s) is the block's (0, p, s). -/
theorem seriesRow_at (v : FVec Ideal S1x64x96 .f32) (p : Fin 64) (s : Fin 96) :
    shapeCast S64x96 v shapeCasts_S1x64x96_S64x96 (ix2 p s) = v (ix3 (0 : Fin 1) p s) :=
  shapeCast_apply v shapeCasts_S1x64x96_S64x96 (ix2 p s) (ix3 (0 : Fin 1) p s) (by
    rw [Shape.rowMajor_val_three, Shape.rowMajor_val_two]
    show ((0 : Nat) * 64 + p.val) * 96 + s.val = p.val * 96 + s.val; omega)

/-- A 1 x 128 row repeated over 64 rows: entry (p, h) is the row's entry h. -/
theorem rowOver64_at (v : FVec Ideal S1x128 .f32) (p : Fin 64) (h : Fin 128) :
    broadcastTo S64x128 (shapeCast S1x128 v shapeCasts_S1x128_S1x128) broadcasts_S1x128_S64x128 (ix2 p h)
      = v (ix2 (0 : Fin 1) h) := by
  rw [shapeCast_self]
  exact broadcastTo_apply v broadcasts_S1x128_S64x128 (ix2 p h) (ix2 (0 : Fin 1) h) (fun a => by
    match a with
    | ⟨0, _⟩ => show 0 = if (1 : Nat) = 1 then 0 else p.val; rw [if_pos rfl]
    | ⟨1, _⟩ => show h.val = if (128 : Nat) = 1 then 0 else h.val; rw [if_neg (by decide)])

/-- A 64 x 128 value repeated over the 96 time steps: entry (p, t, k) is its entry (p, k). -/
theorem overTime_at (v : FVec Ideal S64x128 .f32) (p : Fin 64) (t : Fin 96) (k : Fin 128) :
    broadcastTo S64x96x128 (shapeCast S64x1x128 v shapeCasts_S64x128_S64x1x128) broadcasts_S64x1x128_S64x96x128 (ix3 p t k)
      = v (ix2 p k) := by
  refine (broadcastTo_apply _ broadcasts_S64x1x128_S64x96x128 (ix3 p t k) (ix3 p (0 : Fin 1) k) (fun a => by
    match a with
    | ⟨0, _⟩ => show p.val = if (64 : Nat) = 1 then 0 else p.val; rw [if_neg (by decide)]
    | ⟨1, _⟩ => show 0 = if (1 : Nat) = 1 then 0 else t.val; rw [if_pos rfl]
    | ⟨2, _⟩ => show k.val = if (128 : Nat) = 1 then 0 else k.val; rw [if_neg (by decide)])).trans ?_
  exact shapeCast_apply v shapeCasts_S64x128_S64x1x128 (ix3 p (0 : Fin 1) k) (ix2 p k) (by
    rw [Shape.rowMajor_val_two, Shape.rowMajor_val_three]
    show p.val * 128 + k.val = (p.val * 1 + 0) * 128 + k.val; omega)

/-- A 96 x 128 value repeated over the 64 rows: entry (p, t, k) is its entry (t, k). -/
theorem overRows_at (v : FVec Ideal S96x128 .f32) (p : Fin 64) (t : Fin 96) (k : Fin 128) :
    broadcastTo S64x96x128 (shapeCast S1x96x128 v shapeCasts_S96x128_S1x96x128) broadcasts_S1x96x128_S64x96x128 (ix3 p t k)
      = v (ix2 t k) := by
  refine (broadcastTo_apply _ broadcasts_S1x96x128_S64x96x128 (ix3 p t k) (ix3 (0 : Fin 1) t k) (fun a => by
    match a with
    | ⟨0, _⟩ => show 0 = if (1 : Nat) = 1 then 0 else p.val; rw [if_pos rfl]
    | ⟨1, _⟩ => show t.val = if (96 : Nat) = 1 then 0 else t.val; rw [if_neg (by decide)]
    | ⟨2, _⟩ => show k.val = if (128 : Nat) = 1 then 0 else k.val; rw [if_neg (by decide)])).trans ?_
  exact shapeCast_apply v shapeCasts_S96x128_S1x96x128 (ix3 (0 : Fin 1) t k) (ix2 t k) (by
    rw [Shape.rowMajor_val_two, Shape.rowMajor_val_three]
    show t.val * 128 + k.val = ((0 : Nat) * 96 + t.val) * 128 + k.val; omega)

/-- A per-(p, t) value repeated over the 128 channels: entry (p, t, k) is its entry (p, t, 0). -/
theorem overChannels_at (v : FVec Ideal S64x96x1 .f32) (p : Fin 64) (t : Fin 96) (k : Fin 128) :
    broadcastTo S64x96x128 v broadcasts_S64x96x1_S64x96x128 (ix3 p t k) = v (ix3 p t (0 : Fin 1)) :=
  broadcastTo_apply v broadcasts_S64x96x1_S64x96x128 (ix3 p t k) (ix3 p t (0 : Fin 1)) (fun a => by
    match a with
    | ⟨0, _⟩ => show p.val = if (64 : Nat) = 1 then 0 else p.val; rw [if_neg (by decide)]
    | ⟨1, _⟩ => show t.val = if (96 : Nat) = 1 then 0 else t.val; rw [if_neg (by decide)]
    | ⟨2, _⟩ => show 0 = if (1 : Nat) = 1 then 0 else k.val; rw [if_pos rfl])

/-- A per-(p, t) value given a trailing unit axis: entry (p, t, 0) is its entry (p, t). -/
theorem keepdims_at (v : FVec Ideal S64x96 .f32) (p : Fin 64) (t : Fin 96) :
    shapeCast S64x96x1 v shapeCasts_S64x96_S64x96x1 (ix3 p t (0 : Fin 1)) = v (ix2 p t) :=
  shapeCast_apply v shapeCasts_S64x96_S64x96x1 (ix3 p t (0 : Fin 1)) (ix2 p t) (by
    rw [Shape.rowMajor_val_two, Shape.rowMajor_val_three]
    show p.val * 96 + t.val = (p.val * 96 + t.val) * 1 + 0; omega)

/-- A 1 x 128 row spread over the whole 64 x 96 x 128 block: entry (p, t, k) is the row's entry k. -/
theorem rowOverBlock_at (v : FVec Ideal S1x128 .f32) (p : Fin 64) (t : Fin 96) (k : Fin 128) :
    broadcastTo S64x96x128 (shapeCast S1x1x128 (shapeCast S1x128 v shapeCasts_S1x128_S1x128) shapeCasts_S1x128_S1x1x128)
        broadcasts_S1x1x128_S64x96x128 (ix3 p t k) = v (ix2 (0 : Fin 1) k) := by
  rw [shapeCast_self]
  refine (broadcastTo_apply _ broadcasts_S1x1x128_S64x96x128 (ix3 p t k) (ix3 (0 : Fin 1) (0 : Fin 1) k) (fun a => by
    match a with
    | ⟨0, _⟩ => show 0 = if (1 : Nat) = 1 then 0 else p.val; rw [if_pos rfl]
    | ⟨1, _⟩ => show 0 = if (1 : Nat) = 1 then 0 else t.val; rw [if_pos rfl]
    | ⟨2, _⟩ => show k.val = if (128 : Nat) = 1 then 0 else k.val; rw [if_neg (by decide)])).trans ?_
  exact shapeCast_apply v shapeCasts_S1x128_S1x1x128 (ix3 (0 : Fin 1) (0 : Fin 1) k) (ix2 (0 : Fin 1) k) (by
    rw [Shape.rowMajor_val_two, Shape.rowMajor_val_three]
    show (0 : Nat) * 128 + k.val = ((0 : Nat) * 1 + 0) * 128 + k.val; omega)

/-- The sum over the channel axis of a 64 x 96 x 128 value, at (p, t): the finite sum of its entries (p, t, j). -/
theorem laneSum_at (src : FVec Ideal S64x96x128 .f32) (p : Fin 64) (t : Fin 96) :
    multiReduction .add [2] S64x96 src 0x00000000#32 reduces_S64x96x128_S64x96 (.inl rfl) rfl (ix2 p t)
      = ∑ j : Fin 128, src (ix3 p t j) := by
  refine (Ideal.multiReduction_add_single src 0x00000000#32 reduces_S64x96x128_S64x96 (.inl rfl) rfl (ix2 p t)).trans ?_
  show (∑ j : Fin 128, src (reduces_S64x96x128_S64x96.lift (ix2 p t) j)) = _
  refine Finset.sum_congr rfl fun j _ => congrArg src ?_
  same_index

/-! ## The body's arithmetic at an index -/

/-- The rectified pre-activation of the block at (p, t, k). -/
theorem act_at (P0 : Vec Ideal S1x64x96 .f32) (P1 : Vec Ideal S96x128 .f32) (P2 : Vec Ideal S1x128 .f32) (P3 P4 P5 : Vec Ideal S128x128 .f32) (P6 : Vec Ideal S64x128 .f32) (P7 : Vec Ideal S96x128 .f32) (P8 : Vec Ideal S1x128 .f32) (p : Fin 64) (t : Fin 96) (k : Fin 128) :
    k0_pay2 P0 P1 P2 P3 P4 P5 P6 P7 P8 (ix3 p t k)
      = relu (preact (fun s => P0 (ix3 (0 : Fin 1) p s)) (fun s h => P1 (ix2 s h)) (fun h => P2 (ix2 (0 : Fin 1) h))
          (fun h j => P3 (ix2 h j)) (fun h j => P4 (ix2 h j)) (fun h j => P5 (ix2 h j))
          (fun j => P8 (ix2 (0 : Fin 1) j)) (fun h => P6 (ix2 p h)) (fun h => P7 (ix2 t h)) k) := by
  unfold k0_pay2
  simp only [maximumf_apply, addf_apply, overTime_at, overRows_at, slabMul_at, timeMul_at, projMul_at, rowOver64_at,
    seriesRow_at, broadcast_apply]
  rfl

/-- The centred value: an entry of `A` less the mean of its row of 128 channels. -/
theorem centred_at (A : FVec Ideal S64x96x128 .f32) (p : Fin 64) (t : Fin 96) (j : Fin 128) :
    subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128) (ix3 p t j)
      = A (ix3 p t j) - rowMean (fun i => A (ix3 p t i)) := by
  rw [subf_apply, overChannels_at, divf_apply, keepdims_at, laneSum_at A p t, broadcast_apply]
  rfl

/-- The normalisation of a 64 x 96 x 128 value `A` at (p, t, k), with scale row `g` and shift row `be`: the row
    normalisation of `A`'s row (p, t). -/
theorem norm_at (A : FVec Ideal S64x96x128 .f32) (g be : FVec Ideal S1x128 .f32) (p : Fin 64) (t : Fin 96) (k : Fin 128) :
    FloatOps.addf (FloatOps.mulf (FloatOps.mulf
        (FloatOps.subf (A (ix3 p t k))
          (FloatOps.divf (multiReduction .add [2] S64x96 A 0x00000000#32 reduces_S64x96x128_S64x96 (.inl rfl) rfl (ix2 p t))
            (FloatOps.ofBits (F := Ideal) .f32 0x43000000#32)))
        (FloatOps.rsqrt (FloatOps.addf
          (FloatOps.divf
            (multiReduction .add [2] S64x96 (mulf (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128)) (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128))) 0x00000000#32
              reduces_S64x96x128_S64x96 (.inl rfl) rfl (ix2 p t))
            (FloatOps.ofBits (F := Ideal) .f32 0x43000000#32))
          (FloatOps.ofBits (F := Ideal) .f32 0x3727C5AC#32))))
        (g (ix2 (0 : Fin 1) k))) (be (ix2 (0 : Fin 1) k))
      = rowNorm (fun j => A (ix3 p t j)) (fun j => g (ix2 (0 : Fin 1) j)) (fun j => be (ix2 (0 : Fin 1) j)) k := by
  rw [laneSum_at A p t, laneSum_at (mulf (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128)) (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128))) p t]
  rw [Finset.sum_congr rfl (fun j _ => (mulf_apply (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128)) (subf A (broadcastTo S64x96x128 (divf (shapeCast S64x96x1 (multiReduction .add [2] S64x96 A 0x00000000#32 reduces_S64x96x128_S64x96 (.inl rfl) rfl) shapeCasts_S64x96_S64x96x1) (broadcast S64x96x1 (FloatOps.ofBits (F := Ideal) .f32 0x43000000#32))) broadcasts_S64x96x1_S64x96x128)) (ix3 p t j)).trans
    (congrArg₂ (· * ·) (centred_at A p t j) (centred_at A p t j)))]
  rfl

/-- The block's element at (0, p, t, k) is the row function of the rows it depends on. -/
theorem block_at (P0 : Vec Ideal S1x64x96 .f32) (P1 : Vec Ideal S96x128 .f32) (P2 : Vec Ideal S1x128 .f32) (P3 P4 P5 : Vec Ideal S128x128 .f32) (P6 : Vec Ideal S64x128 .f32) (P7 : Vec Ideal S96x128 .f32) (P8 P9 P10 : Vec Ideal S1x128 .f32) (p : Fin 64) (t : Fin 96) (k : Fin 128) :
    Value.E9 P0 P1 P2 P3 P4 P5 P6 P7 P8 P9 P10 (ix4 (0 : Fin 1) p t k)
      = out (fun s => P0 (ix3 (0 : Fin 1) p s)) (fun s h => P1 (ix2 s h)) (fun h => P2 (ix2 (0 : Fin 1) h))
          (fun h j => P3 (ix2 h j)) (fun h j => P4 (ix2 h j)) (fun h j => P5 (ix2 h j))
          (fun j => P8 (ix2 (0 : Fin 1) j)) (fun h => P6 (ix2 p h)) (fun h => P7 (ix2 t h))
          (fun j => P9 (ix2 (0 : Fin 1) j)) (fun j => P10 (ix2 (0 : Fin 1) j)) k := by
  have i0 : Value.ix9_0 (ix4 (0 : Fin 1) p t k) = ix3 p t k := by same_index
  have i1 : Value.ix9_1 (ix4 (0 : Fin 1) p t k) = ix2 p t := by same_index
  have i2 : Value.ix9_2 (ix4 (0 : Fin 1) p t k) = ix2 p t := by same_index
  have i3 : Value.ix9_3 (ix4 (0 : Fin 1) p t k) = ix2 (0 : Fin 1) k := by same_index
  have i4 : Value.ix9_4 (ix4 (0 : Fin 1) p t k) = ix2 (0 : Fin 1) k := by same_index
  have rows : (fun j => k0_pay2 P0 P1 P2 P3 P4 P5 P6 P7 P8 (ix3 p t j))
      = fun j => relu (preact (fun s => P0 (ix3 (0 : Fin 1) p s)) (fun s h => P1 (ix2 s h)) (fun h => P2 (ix2 (0 : Fin 1) h))
          (fun h j => P3 (ix2 h j)) (fun h j => P4 (ix2 h j)) (fun h j => P5 (ix2 h j))
          (fun j => P8 (ix2 (0 : Fin 1) j)) (fun h => P6 (ix2 p h)) (fun h => P7 (ix2 t h)) j) :=
    funext fun j => act_at P0 P1 P2 P3 P4 P5 P6 P7 P8 p t j
  simp only [Value.E9, i0, i1, i2, i3, i4]
  refine (norm_at (k0_pay2 P0 P1 P2 P3 P4 P5 P6 P7 P8) P9 P10 p t k).trans ?_
  rw [rows]
  rfl

end Cert.KernelIdeal.BlockValue

end
-- ==== Proof.ArrayValue.lean ====
/-
  From the blocks to the whole output array.

  The grid has 16 x 4 points: point (b, q) holds batch entry b and the nodes 64 q, ..., 64 q + 63. It reads block (b, q)
  of the series, block q of the node embedding and the whole of every other operand, and writes block (b, q) of the
  output, whose element (0, p, t, k) is the output element (b, 64 q + p, t, k). The biases, the scale and the shift reach
  the kernel as 1 x 128 rows that the host made from the 128-vectors by a change of shape. So what each point writes
  back is its block of ONE array, the specification's output array of the nine arguments; the 64 blocks tile the array
  (the point that covers node n is q = n / 64), hence the array ends as that.
-/
import proofs.«143036_g19224273616920_pilotgen1_646_2_alg».proof.Proof.BlockValue
import Idealize.ShloMosaic.Lib.StableHlo.Run

set_option maxRecDepth 16384

noncomputable section

namespace Cert.KernelIdeal.ArrayValue

open Cert.KernelIdeal Cert.KernelIdeal.Gen Cert.KernelIdeal.BlockValue Cert.PosEnc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## One grid point over blocks given as variables -/

/-- The first slab of the fused weight as the body loads it: rows 0 to 127. -/
theorem slab1_ld (x3 : Vec Ideal S384x128 .f32) (h j : Fin 128) : View.ld x3 r0_3 (ix2 h j) = x3 (ix2 (slab1 h) j) :=
  congrArg x3 (by
    funext a; apply Fin.ext
    match a with
    | ⟨0, _⟩ => show 0 + 1 * h.val = h.val; omega
    | ⟨1, _⟩ => show 0 + 1 * j.val = j.val; omega)

/-- The second slab: rows 128 to 255. -/
theorem slab2_ld (x3 : Vec Ideal S384x128 .f32) (h j : Fin 128) : View.ld x3 r0_4 (ix2 h j) = x3 (ix2 (slab2 h) j) :=
  congrArg x3 (by
    funext a; apply Fin.ext
    match a with
    | ⟨0, _⟩ => show 128 + 1 * h.val = 128 + h.val; omega
    | ⟨1, _⟩ => show 0 + 1 * j.val = j.val; omega)

/-- The third slab: rows 256 to 383. -/
theorem slab3_ld (x3 : Vec Ideal S384x128 .f32) (h j : Fin 128) : View.ld x3 r0_5 (ix2 h j) = x3 (ix2 (slab3 h) j) :=
  congrArg x3 (by
    funext a; apply Fin.ext
    match a with
    | ⟨0, _⟩ => show 256 + 1 * h.val = 256 + h.val; omega
    | ⟨1, _⟩ => show 0 + 1 * j.val = j.val; omega)

/-- The row function depends on its eleven rows only through their entries. -/
theorem out_congr {X X' : Fin 96 → EReal} {Wp Wp' : Fin 96 → Fin 128 → EReal} {bp bp' : Fin 128 → EReal}
    {W1 W1' W2 W2' W3 W3' : Fin 128 → Fin 128 → EReal} {bf bf' NE NE' TE TE' g g' be be' : Fin 128 → EReal} (k : Fin 128)
    (hX : ∀ s, X s = X' s) (hWp : ∀ s h, Wp s h = Wp' s h) (hbp : ∀ h, bp h = bp' h)
    (hW1 : ∀ h j, W1 h j = W1' h j) (hW2 : ∀ h j, W2 h j = W2' h j) (hW3 : ∀ h j, W3 h j = W3' h j)
    (hbf : ∀ j, bf j = bf' j) (hNE : ∀ h, NE h = NE' h) (hTE : ∀ h, TE h = TE' h)
    (hg : ∀ j, g j = g' j) (hbe : ∀ j, be j = be' j) :
    out X Wp bp W1 W2 W3 bf NE TE g be k = out X' Wp' bp' W1' W2' W3' bf' NE' TE' g' be' k := by
  obtain rfl : X = X' := funext hX
  obtain rfl : Wp = Wp' := funext fun s => funext (hWp s)
  obtain rfl : bp = bp' := funext hbp
  obtain rfl : W1 = W1' := funext fun h => funext (hW1 h)
  obtain rfl : W2 = W2' := funext fun h => funext (hW2 h)
  obtain rfl : W3 = W3' := funext fun h => funext (hW3 h)
  obtain rfl : bf = bf' := funext hbf
  obtain rfl : NE = NE' := funext hNE
  obtain rfl : TE = TE' := funext hTE
  obtain rfl : g = g' := funext hg
  obtain rfl : be = be' := funext hbe
  rfl

/-- What a point leaves in the output window's buffer, at (0, p, t, k), as the row function of its operands' blocks. -/
theorem point_at (x0 : Vec Ideal S1x64x96 .f32) (x1 : Vec Ideal S96x128 .f32) (x2 : Vec Ideal S1x128 .f32) (x3 : Vec Ideal S384x128 .f32) (x4 x5 x6 : Vec Ideal S1x128 .f32) (x7 : Vec Ideal S64x128 .f32) (x8 : Vec Ideal S96x128 .f32) (p : Fin 64) (t : Fin 96) (k : Fin 128) :
    out0_9 x0 x1 x2 x3 x4 x5 x6 x7 x8 (ix4 (0 : Fin 1) p t k)
      = out (fun s => x0 (ix3 (0 : Fin 1) p s)) (fun s h => x1 (ix2 s h)) (fun h => x2 (ix2 (0 : Fin 1) h))
          (fun h j => x3 (ix2 (slab1 h) j)) (fun h j => x3 (ix2 (slab2 h) j)) (fun h j => x3 (ix2 (slab3 h) j))
          (fun j => x4 (ix2 (0 : Fin 1) j)) (fun h => x7 (ix2 p h)) (fun h => x8 (ix2 t h))
          (fun j => x5 (ix2 (0 : Fin 1) j)) (fun j => x6 (ix2 (0 : Fin 1) j)) k := by
  unfold out0_9
  rw [Value.canon9_eq, block_at]
  refine out_congr k (fun s => ?_) (fun s h => ?_) (fun h => ?_) (fun h j => ?_) (fun h j => ?_) (fun h j => ?_)
    (fun j => ?_) (fun h => ?_) (fun h => ?_) (fun j => ?_) (fun j => ?_)
  · exact congrFun (View.ld_unit_zero (S := S1x64x96) zeros3 _ x0) _
  · exact congrFun (View.ld_unit_zero (S := S96x128) zeros2 _ x1) _
  · exact congrFun (View.ld_unit_zero (S := S1x128) zeros2 _ x2) _
  · exact slab1_ld x3 h j
  · exact slab2_ld x3 h j
  · exact slab3_ld x3 h j
  · exact congrFun (View.ld_unit_zero (S := S1x128) zeros2 _ x4) _
  · exact congrFun (View.ld_unit_zero (S := S64x128) zeros2 _ x7) _
  · exact congrFun (View.ld_unit_zero (S := S96x128) zeros2 _ x8) _
  · exact congrFun (View.ld_unit_zero (S := S1x128) zeros2 _ x5) _
  · exact congrFun (View.ld_unit_zero (S := S1x128) zeros2 _ x6) _

/-! ## The 128-vectors as the 1 x 128 rows the host hands to the kernel -/

/-- A 128-vector recast as a 1 x 128 row: entry (0, h) is the vector's entry h. -/
theorem row_of_vector (v : S128.Idx → EReal) (h : Fin 128) :
    shapeCast S1x128 v shapeCasts_S128_S1x128 (ix2 (0 : Fin 1) h) = v (ix1 h) :=
  shapeCast_apply v shapeCasts_S128_S1x128 (ix2 (0 : Fin 1) h) (ix1 h) (by
    rw [Shape.rowMajor_val_one, Shape.rowMajor_val_two]
    show h.val = (0 : Nat) * 128 + h.val; omega)

theorem V_main_v0 (c : Dev nD) (h : Fin 128) :
    V m c main_v0 (ix2 (0 : Fin 1) h) = m ((c : Thread nD τ).loc main_arg2) (ix1 h) := by
  have e : (V m c main_v0 : S1x128.Idx → EReal) = shapeCast S1x128 (m ((c : Thread nD τ).loc main_arg2)) shapeCasts_S128_S1x128 := by
    dsimp only [V, hostOps0]; after_results; rfl
  rw [e]; exact row_of_vector _ h

theorem V_main_v1 (c : Dev nD) (h : Fin 128) :
    V m c main_v1 (ix2 (0 : Fin 1) h) = m ((c : Thread nD τ).loc main_arg4) (ix1 h) := by
  have e : (V m c main_v1 : S1x128.Idx → EReal) = shapeCast S1x128 (m ((c : Thread nD τ).loc main_arg4)) shapeCasts_S128_S1x128 := by
    dsimp only [V, hostOps0]; after_results; rfl
  rw [e]; exact row_of_vector _ h

theorem V_main_v2 (c : Dev nD) (h : Fin 128) :
    V m c main_v2 (ix2 (0 : Fin 1) h) = m ((c : Thread nD τ).loc main_arg5) (ix1 h) := by
  have e : (V m c main_v2 : S1x128.Idx → EReal) = shapeCast S1x128 (m ((c : Thread nD τ).loc main_arg5)) shapeCasts_S128_S1x128 := by
    dsimp only [V, hostOps0]; after_results; rfl
  rw [e]; exact row_of_vector _ h

theorem V_main_v3 (c : Dev nD) (h : Fin 128) :
    V m c main_v3 (ix2 (0 : Fin 1) h) = m ((c : Thread nD τ).loc main_arg6) (ix1 h) := by
  have e : (V m c main_v3 : S1x128.Idx → EReal) = shapeCast S1x128 (m ((c : Thread nD τ).loc main_arg6)) shapeCasts_S128_S1x128 := by
    dsimp only [V, hostOps0]; after_results; rfl
  rw [e]; exact row_of_vector _ h

/-! ## The grid: which blocks a point reads and writes -/

/-- The printed index maps over the 64 points: the series block and the node block move with the output block; every
    other operand stays at its one block; the output block index is (batch entry, node group, 0, 0). -/
theorem index_facts : ∀ t : Fin cfg0.N,
    win0_0.index t (0 : Fin 3) = win0_9.index t (0 : Fin 4) ∧ win0_0.index t (1 : Fin 3) = win0_9.index t (1 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = win0_9.index t (1 : Fin 4) ∧ win0_7.index t (1 : Fin 2) = 0
    ∧ win0_8.index t (0 : Fin 2) = 0 ∧ win0_8.index t (1 : Fin 2) = 0
    ∧ win0_9.index t (0 : Fin 4) < 16 ∧ win0_9.index t (1 : Fin 4) < 4
    ∧ win0_9.index t (2 : Fin 4) = 0 ∧ win0_9.index t (3 : Fin 4) = 0 :=
  (by decide +kernel : ∀ t : Fin grid0.N, _)

/-- Every (batch entry, node group) is some point's output block. -/
theorem index_onto : ∀ (b : Fin 16) (q : Fin 4), ∃ t : Fin cfg0.N, win0_9.index t = ![b.val, q.val, 0, 0] :=
  (by decide +kernel : ∀ (b : Fin 16) (q : Fin 4), ∃ t : Fin grid0.N, win0_9.index t = ![b.val, q.val, 0, 0])

/-- The output array of the nine arguments as core `c` holds them. -/
abbrev outArr (c : Dev nD) : S16x256x96x128.Idx → EReal :=
  outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- WHAT POINT `t` WRITES BACK is its block of the output array. -/
theorem flushed_eq (c : Dev nD) (t : Fin cfg0.N) :
    (dats m 0 c).flushed 9 t = ((cfg0.win 9).blk t).view.read (Elt Ideal) (outArr m c) := by
  rw [Value.flushed9]
  obtain ⟨e00, e01, e02, e10, e11, e20, e21, e30, e31, e40, e41, e50, e51, e60, e61, e70, e71, e80, e81, hb, hq, e92, e93⟩ :=
    index_facts t
  funext y
  obtain ⟨z, p, u, k, rfl⟩ : ∃ (z : Fin 1) (p : Fin 64) (u : Fin 96) (k : Fin 128), y = ix4 z p u k :=
    ⟨y 0, y 1, y 2, y 3, eq_ix4 y⟩
  obtain rfl : z = 0 := Subsingleton.elim _ _
  show out0_9 (iblk m c 0 t) (iblk m c 1 t) (iblk m c 2 t) (iblk m c 3 t) (iblk m c 4 t) (iblk m c 5 t) (iblk m c 6 t)
      (iblk m c 7 t) (iblk m c 8 t) (ix4 (0 : Fin 1) p u k)
    = outArr m c (((cfg0.win 9).blk t).view.emb (ix4 (0 : Fin 1) p u k))
  have hemb : ((cfg0.win 9).blk t).view.emb (ix4 (0 : Fin 1) p u k)
      = ix4 (⟨win0_9.index t (0 : Fin 4), hb⟩ : Fin 16) (⟨win0_9.index t (1 : Fin 4) * 64 + p.val, by omega⟩ : Fin 256) u k := by
    funext a; apply Fin.ext
    match a with
    | ⟨0, _⟩ => show win0_9.index t (0 : Fin 4) * 1 + 1 * 0 = win0_9.index t (0 : Fin 4); omega
    | ⟨1, _⟩ => show win0_9.index t (1 : Fin 4) * 64 + 1 * p.val = win0_9.index t (1 : Fin 4) * 64 + p.val; omega
    | ⟨2, _⟩ => show win0_9.index t (2 : Fin 4) * 96 + 1 * u.val = u.val; omega
    | ⟨3, _⟩ => show win0_9.index t (3 : Fin 4) * 128 + 1 * k.val = k.val; omega
  rw [hemb]
  show _ = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (ix4 (⟨win0_9.index t (0 : Fin 4), hb⟩ : Fin 16) (⟨win0_9.index t (1 : Fin 4) * 64 + p.val, by omega⟩ : Fin 256) u k)
  rw [outArray_ix4]
  refine (point_at (iblk m c 0 t) (iblk m c 1 t) (iblk m c 2 t) (iblk m c 3 t) (iblk m c 4 t) (iblk m c 5 t)
    (iblk m c 6 t) (iblk m c 7 t) (iblk m c 8 t) p u k).trans ?_
  unfold outAt
  refine out_congr k (fun s => ?_) (fun s h => ?_) (fun h => ?_) (fun h j => ?_) (fun h j => ?_) (fun h j => ?_)
    (fun j => ?_) (fun h => ?_) (fun h => ?_) (fun j => ?_) (fun j => ?_)
  · -- the series row: block (b, q) of the series at (0, p, s) is the series at (b, 64 q + p, s)
    show V m c main_arg0 (((cfg0.win 0).blk t).view.emb (ix3 (0 : Fin 1) p s)) = _
    rw [V_main_arg0]
    refine congrArg _ ?_
    funext a; apply Fin.ext
    match a with
    | ⟨0, _⟩ => show win0_0.index t (0 : Fin 3) * 1 + 1 * 0 = win0_9.index t (0 : Fin 4); omega
    | ⟨1, _⟩ => show win0_0.index t (1 : Fin 3) * 64 + 1 * p.val = win0_9.index t (1 : Fin 4) * 64 + p.val; omega
    | ⟨2, _⟩ => show win0_0.index t (2 : Fin 3) * 96 + 1 * s.val = s.val; omega
  · -- the projection weight, whole
    show V m c main_arg1 (((cfg0.win 1).blk t).view.emb (ix2 s h)) = _
    rw [V_main_arg1]
    refine congrArg _ ?_
    funext a; apply Fin.ext
    match a with
    | ⟨0, _⟩ => show win0_1.index t (0 : Fin 2) * 96 + 1 * s.val = s.val; omega
    | ⟨1, _⟩ => show win0_1.index t (1 : Fin 2) * 128 + 1 * h.val = h.val; omega
  · -- the projection bias, as a row
    show V m c main_v0 (((cfg0.win 2).blk t).view.emb (ix2 (0 : Fin 1) h)) = _
    rw [← V_main_v0 m c h]
    refine congrArg _ ?_
    funext a; apply Fin.ext
    match a with
    | ⟨0, _⟩ => show win0_2.index t (0 : Fin 2) * 1 + 1 * 0 = 0; omega
    | ⟨1, _⟩ => show win0_2.index t (1 : Fin 2) * 128 + 1 * h.val = h.val; omega
  · -- the fused weight, whole: first slab
    show V m c main_arg3 (((cfg0.win 3).blk t).view.emb (ix2 (slab1 h) j)) = _
    rw [V_main_arg3]
    refine congrArg _ ?_
    funext a; apply Fin.ext
    match a with
    | ⟨0, _⟩ => show win0_3.index t (0 : Fin 2) * 384 + 1 * h.val = h.val; omega
    | ⟨1, _⟩ => show win0_3.index t (1 : Fin 2) * 128 + 1 * j.val = j.val; omega
  · -- second slab
    show V m c main_arg3 (((cfg0.win 3).blk t).view.emb (ix2 (slab2 h) j)) = _
    rw [V_main_arg3]
    refine congrArg _ ?_
    funext a; apply Fin.ext
    match a with
    | ⟨0, _⟩ => show win0_3.index t (0 : Fin 2) * 384 + 1 * (128 + h.val) = 128 + h.val; omega
    | ⟨1, _⟩ => show win0_3.index t (1 : Fin 2) * 128 + 1 * j.val = j.val; omega
  · -- third slab
    show V m c main_arg3 (((cfg0.win 3).blk t).view.emb (ix2 (slab3 h) j)) = _
    rw [V_main_arg3]
    refine congrArg _ ?_
    funext a; apply Fin.ext
    match a with
    | ⟨0, _⟩ => show win0_3.index t (0 : Fin 2) * 384 + 1 * (256 + h.val) = 256 + h.val; omega
    | ⟨1, _⟩ => show win0_3.index t (1 : Fin 2) * 128 + 1 * j.val = j.val; omega
  · -- the fused bias, as a row
    show V m c main_v1 (((cfg0.win 4).blk t).view.emb (ix2 (0 : Fin 1) j)) = _
    rw [← V_main_v1 m c j]
    refine congrArg _ ?_
    funext a; apply Fin.ext
    match a with
    | ⟨0, _⟩ => show win0_4.index t (0 : Fin 2) * 1 + 1 * 0 = 0; omega
    | ⟨1, _⟩ => show win0_4.index t (1 : Fin 2) * 128 + 1 * j.val = j.val; omega
  · -- the node embedding row: block q at row p is node 64 q + p
    show V m c main_arg7 (((cfg0.win 7).blk t).view.emb (ix2 p h)) = _
    rw [V_main_arg7]
    refine congrArg _ ?_
    funext a; apply Fin.ext
    match a with
    | ⟨0, _⟩ => show win0_7.index t (0 : Fin 2) * 64 + 1 * p.val = win0_9.index t (1 : Fin 4) * 64 + p.val; omega
    | ⟨1, _⟩ => show win0_7.index t (1 : Fin 2) * 128 + 1 * h.val = h.val; omega
  · -- the time embedding, whole
    show V m c main_arg8 (((cfg0.win 8).blk t).view.emb (ix2 u h)) = _
    rw [V_main_arg8]
    refine congrArg _ ?_
    funext a; apply Fin.ext
    match a with
    | ⟨0, _⟩ => show win0_8.index t (0 : Fin 2) * 96 + 1 * u.val = u.val; omega
    | ⟨1, _⟩ => show win0_8.index t (1 : Fin 2) * 128 + 1 * h.val = h.val; omega
  · -- the scale, as a row
    show V m c main_v2 (((cfg0.win 5).blk t).view.emb (ix2 (0 : Fin 1) j)) = _
    rw [← V_main_v2 m c j]
    refine congrArg _ ?_
    funext a; apply Fin.ext
    match a with
    | ⟨0, _⟩ => show win0_5.index t (0 : Fin 2) * 1 + 1 * 0 = 0; omega
    | ⟨1, _⟩ => show win0_5.index t (1 : Fin 2) * 128 + 1 * j.val = j.val; omega
  · -- the shift, as a row
    show V m c main_v3 (((cfg0.win 6).blk t).view.emb (ix2 (0 : Fin 1) j)) = _
    rw [← V_main_v3 m c j]
    refine congrArg _ ?_
    funext a; apply Fin.ext
    match a with
    | ⟨0, _⟩ => show win0_6.index t (0 : Fin 2) * 1 + 1 * 0 = 0; omega
    | ⟨1, _⟩ => show win0_6.index t (1 : Fin 2) * 128 + 1 * j.val = j.val; omega

/-- An index of the output array is in point `t`'s block iff each coordinate is in the block's range on its axis. -/
theorem mem_block (t : Fin cfg0.N) (i : S16x256x96x128.Idx) :
    i ∈ ((cfg0.win 9).blk t).view.set ↔ ∀ a : Fin 4, win0_9.index t a * S1x64x96x128.size a ≤ (i a).val
      ∧ (i a).val < win0_9.index t a * S1x64x96x128.size a + S1x64x96x128.size a := by
  show i ∈ ((View.whole main_v4).slice (win0_9.rect t)).set ↔ _
  rw [View.set_slice_whole, Rect.mem_set_unit]
  exact Iff.rfl

/-- The 64 output blocks tile the array: node n of batch entry b is in the block of point (b, n / 64). -/
theorem covered (i : S16x256x96x128.Idx) :
    ∃ t : Fin cfg0.N, (cfg0.win 9).flush t = true ∧ i ∈ ((cfg0.win 9).blk t).view.set := by
  have h0 : (i 0).val < 16 := (i 0).isLt
  have h1 : (i 1).val < 256 := (i 1).isLt
  have h2 : (i 2).val < 96 := (i 2).isLt
  have h3 : (i 3).val < 128 := (i 3).isLt
  obtain ⟨t, ht⟩ := index_onto ⟨(i 0).val, h0⟩ ⟨(i 1).val / 64, by omega⟩
  have q0 : win0_9.index t (0 : Fin 4) = (i 0).val := congrFun ht 0
  have q1 : win0_9.index t (1 : Fin 4) = (i 1).val / 64 := congrFun ht 1
  have q2 : win0_9.index t (2 : Fin 4) = 0 := congrFun ht 2
  have q3 : win0_9.index t (3 : Fin 4) = 0 := congrFun ht 3
  refine ⟨t, flush0_9 t, ?_⟩
  rw [mem_block]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 64 ≤ (i 1).val ∧ (i 1).val < win0_9.index t (1 : Fin 4) * 64 + 64; omega
  | ⟨2, _⟩ => show win0_9.index t (2 : Fin 4) * 96 ≤ (i 2).val ∧ (i 2).val < win0_9.index t (2 : Fin 4) * 96 + 96; omega
  | ⟨3, _⟩ => show win0_9.index t (3 : Fin 4) * 128 ≤ (i 3).val ∧ (i 3).val < win0_9.index t (3 : Fin 4) * 128 + 128; omega

/-- THE OUTPUT ARRAY after the run is the specification's output array of the arguments. -/
theorem final (c : Dev nD) : (dats m 0 c).arrAt 9 cfg0.N = outArr m c :=
  (dats m 0 c).arrAt_eq_of_cover 9 (outArr m c) (fun t _ => flushed_eq m c t) covered

/-- The kernel's run: it terminates without a fault, the result array holds the specification's output array of the
    arguments, and the arguments are unchanged. -/
theorem run : θ_run defs (onTc (τ := τ) (main (F := Ideal))) ⟨m, fun _ => 0, ρ⟩ fun r => ∀ c : Dev nD,
      r.2.mem ((c : Thread nD τ).loc main_v4) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.RefValue.lean ====
/-
  The reference program's result, read at an index, is the row function of `RowSpec`.

  The reference computes the projection for every (batch entry, node) pair as one contraction over the 96 time samples,
  multiplies it by the first slab of the fused weight, adds the node embedding through the second slab (broadcast over
  batch entries), then the time embedding through the third slab (broadcast over batch entries and nodes), then the
  bias; rectifies; and normalises each row of 128 channels by its mean and variance. Read at the index (b, n, t, k)
  every broadcast picks the coordinates it keeps, every contraction is a finite sum, and the host's sum over the channel
  axis is the zero word plus a finite sum. The reference adds the time term before the bias; `preact_time_then_bias`
  puts them in the order of the specification.
-/
import proofs.«143036_g19224273616920_pilotgen1_646_2_alg».proof.Proof.Gen.ReferenceIdeal.Read
import proofs.«143036_g19224273616920_pilotgen1_646_2_alg».proof.Proof.RowSpec

noncomputable section

namespace Cert.ReferenceIdeal.RefValue

open Cert.ReferenceIdeal Cert.ReferenceIdeal.Read Cert.PosEnc
open Idealize.ShloMosaic Idealize.ShloMosaic.TcCoe Idealize.ShloMosaic.ValueIdx

/-- An argument array of the reference at the exact instance. -/
abbrev Arr (S : Shape) : Type := (⟨S, .f32⟩ : BufTy).Contents (Elt Ideal)

variable (x0 : Arr S16x256x96) (x1 : Arr S96x128) (x2 : Arr S128) (x3 : Arr S384x128) (x4 x5 x6 : Arr S128)
  (x7 : Arr S256x128) (x8 : Arr S96x128)

/-- Two indices of one shape with the same coordinates are equal (each coordinate checked by computation). -/
macro "same_index" : tactic => `(tactic| (funext a; apply Fin.ext; fin_cases a <;> rfl))

/-- The projection: the series of (b, n) against column h of the projection weight, plus the bias. -/
theorem proj_at (b : Fin 16) (n : Fin 256) (h : Fin 128) :
    val_main_v3 (F := Ideal) x0 x1 x2 (ix3 b n h)
      = (∑ s : Fin 96, x0 (ix3 b n s) * x1 (ix2 s h)) + x2 (ix1 h) := by
  rw [val_main_v3_apply, val_main_v0_apply, val_main_v2_apply, val_main_v1_apply]
  have e0 : ∀ s : Fin 96, lidx_main_v0 (ix3 b n h) s = ix3 b n s := fun s => by same_index
  have e1 : ∀ s : Fin 96, ridx_main_v0 (ix3 b n h) s = ix2 s h := fun s => by same_index
  have e2 : idx_main_v1 (idx_main_v2 (ix3 b n h)) = ix1 h := by same_index
  simp only [e0, e1, e2]
  rfl

/-- The projected row through the first slab. -/
theorem projW1_at (b : Fin 16) (n : Fin 256) (k : Fin 128) :
    val_main_v7 (F := Ideal) x0 x1 x2 x3 (ix3 b n k)
      = ∑ h : Fin 128, ((∑ s : Fin 96, x0 (ix3 b n s) * x1 (ix2 s h)) + x2 (ix1 h)) * x3 (ix2 (slab1 h) k) := by
  rw [val_main_v7_apply]
  refine Finset.sum_congr rfl fun h _ => ?_
  have e0 : lidx_main_v7 (ix3 b n k) h = ix3 b n h := by same_index
  have e1 : idx_main_v4 (ridx_main_v7 (ix3 b n k) h) = ix2 (slab1 h) k := by same_index
  rw [e0, proj_at, val_main_v4_apply, e1]

/-- The node embedding row through the second slab. -/
theorem nodeW2_at (n : Fin 256) (k : Fin 128) :
    val_main_v9 (F := Ideal) x3 x7 (ix2 n k) = ∑ h : Fin 128, x7 (ix2 n h) * x3 (ix2 (slab2 h) k) := by
  rw [val_main_v9_apply]
  refine Finset.sum_congr rfl fun h _ => ?_
  have e0 : lidx_main_v9 (ix2 n k) h = ix2 n h := by same_index
  have e1 : idx_main_v5 (ridx_main_v9 (ix2 n k) h) = ix2 (slab2 h) k := by same_index
  rw [e0, val_main_v5_apply, e1]

/-- The time embedding row through the third slab. -/
theorem timeW3_at (t : Fin 96) (k : Fin 128) :
    val_main_v13 (F := Ideal) x3 x8 (ix2 t k) = ∑ h : Fin 128, x8 (ix2 t h) * x3 (ix2 (slab3 h) k) := by
  rw [val_main_v13_apply]
  refine Finset.sum_congr rfl fun h _ => ?_
  have e0 : lidx_main_v13 (ix2 t k) h = ix2 t h := by same_index
  have e1 : idx_main_v6 (ridx_main_v13 (ix2 t k) h) = ix2 (slab3 h) k := by same_index
  rw [e0, val_main_v6_apply, e1]

/-- The pre-activation at (b, n, t, k) is the specification's, the bias moved past the time term. -/
theorem preact_at (b : Fin 16) (n : Fin 256) (t : Fin 96) (k : Fin 128) :
    val_main_v20 (F := Ideal) x0 x1 x2 x3 x4 x7 x8 (ix4 b n t k)
      = preact (fun s => x0 (ix3 b n s)) (fun s h => x1 (ix2 s h)) (fun h => x2 (ix1 h))
          (fun h j => x3 (ix2 (slab1 h) j)) (fun h j => x3 (ix2 (slab2 h) j)) (fun h j => x3 (ix2 (slab3 h) j))
          (fun j => x4 (ix1 j)) (fun h => x7 (ix2 n h)) (fun h => x8 (ix2 t h)) k := by
  rw [val_main_v20_apply, val_main_v17_apply, val_main_v15_apply, val_main_v12_apply, val_main_v8_apply,
    val_main_v11_apply, val_main_v10_apply, val_main_v16_apply, val_main_v14_apply, val_main_v19_apply,
    val_main_v18_apply]
  have e0 : idx_main_v8 (idx_main_v15 (ix4 b n t k)) = ix3 b n k := by same_index
  have e1 : idx_main_v10 (idx_main_v11 (idx_main_v15 (ix4 b n t k))) = ix2 n k := by same_index
  have e2 : idx_main_v14 (idx_main_v16 (ix4 b n t k)) = ix2 t k := by same_index
  have e3 : idx_main_v18 (idx_main_v19 (ix4 b n t k)) = ix1 k := by same_index
  rw [e0, e1, e2, e3, projW1_at, nodeW2_at, timeW3_at]
  exact preact_time_then_bias (fun s => x0 (ix3 b n s)) (fun s h => x1 (ix2 s h)) (fun h => x2 (ix1 h))
    (fun h j => x3 (ix2 (slab1 h) j)) (fun h j => x3 (ix2 (slab2 h) j)) (fun h j => x3 (ix2 (slab3 h) j))
    (fun j => x4 (ix1 j)) (fun h => x7 (ix2 n h)) (fun h => x8 (ix2 t h)) k

/-- The rectified value at (b, n, t, k). -/
theorem act_at (b : Fin 16) (n : Fin 256) (t : Fin 96) (k : Fin 128) :
    val_main_v21 (F := Ideal) x0 x1 x2 x3 x4 x7 x8 (ix4 b n t k)
      = relu (preact (fun s => x0 (ix3 b n s)) (fun s h => x1 (ix2 s h)) (fun h => x2 (ix1 h))
          (fun h j => x3 (ix2 (slab1 h) j)) (fun h j => x3 (ix2 (slab2 h) j)) (fun h j => x3 (ix2 (slab3 h) j))
          (fun j => x4 (ix1 j)) (fun h => x7 (ix2 n h)) (fun h => x8 (ix2 t h)) k) := by
  rw [val_main_v21_apply, preact_at, val_main_call0_v0_apply, val_main_call0_cst_apply]
  rfl

/-- The row of rectified values at (b, n, t): what the mean and the variance are taken over. -/
abbrev actRow (b : Fin 16) (n : Fin 256) (t : Fin 96) : Fin 128 → EReal := fun j =>
  relu (preact (fun s => x0 (ix3 b n s)) (fun s h => x1 (ix2 s h)) (fun h => x2 (ix1 h))
    (fun h j => x3 (ix2 (slab1 h) j)) (fun h j => x3 (ix2 (slab2 h) j)) (fun h j => x3 (ix2 (slab3 h) j))
    (fun j => x4 (ix1 j)) (fun h => x7 (ix2 n h)) (fun h => x8 (ix2 t h)) j)

/-- The mean over the channels at (b, n, t): the host's sum starts from the zero word, which is zero. -/
theorem mean_at (b : Fin 16) (n : Fin 256) (t : Fin 96) (u : Fin 1) :
    val_main_v25 (F := Ideal) x0 x1 x2 x3 x4 x7 x8 (ix4 b n t u) = rowMean (actRow x0 x1 x2 x3 x4 x7 x8 b n t) := by
  rw [val_main_v25_apply, val_main_v23_apply, val_main_v22_apply, val_main_v24_apply, val_main_cst_0_apply,
    val_main_cst_apply]
  have e0 : ∀ j : Fin 128, idx_main_v22 (idx_main_v23 (ix4 b n t u)) j = ix4 b n t j := fun j => by same_index
  simp only [e0, act_at]
  show Ideal.div (Ideal.ofBits .f32 0x00000000#32 + ∑ j : Fin 128, actRow x0 x1 x2 x3 x4 x7 x8 b n t j) _ = _
  rw [Ideal.ofBits_zero_f32, zero_add]
  rfl

/-- The centred value at (b, n, t, k). -/
theorem centred_at (b : Fin 16) (n : Fin 256) (t : Fin 96) (k : Fin 128) :
    val_main_v27 (F := Ideal) x0 x1 x2 x3 x4 x7 x8 (ix4 b n t k)
      = actRow x0 x1 x2 x3 x4 x7 x8 b n t k - rowMean (actRow x0 x1 x2 x3 x4 x7 x8 b n t) := by
  rw [val_main_v27_apply, val_main_v26_apply, act_at]
  have e0 : idx_main_v26 (ix4 b n t k) = ix4 b n t (0 : Fin 1) := by same_index
  rw [e0, mean_at]
  rfl

/-- The variance over the channels at (b, n, t). -/
theorem var_at (b : Fin 16) (n : Fin 256) (t : Fin 96) (u : Fin 1) :
    val_main_v32 (F := Ideal) x0 x1 x2 x3 x4 x7 x8 (ix4 b n t u)
      = rowMean (fun j => (actRow x0 x1 x2 x3 x4 x7 x8 b n t j - rowMean (actRow x0 x1 x2 x3 x4 x7 x8 b n t))
          * (actRow x0 x1 x2 x3 x4 x7 x8 b n t j - rowMean (actRow x0 x1 x2 x3 x4 x7 x8 b n t))) := by
  rw [val_main_v32_apply, val_main_v30_apply, val_main_v29_apply, val_main_v31_apply, val_main_cst_2_apply,
    val_main_cst_1_apply]
  have e0 : ∀ j : Fin 128, idx_main_v29 (idx_main_v30 (ix4 b n t u)) j = ix4 b n t j := fun j => by same_index
  simp only [e0, val_main_v28_apply, centred_at]
  show Ideal.div (Ideal.ofBits .f32 0x00000000#32 + ∑ j : Fin 128, _) _ = _
  rw [Ideal.ofBits_zero_f32, zero_add]
  rfl

/-- The reference's result at (b, n, t, k) is the specification's output element. -/
theorem result_at (b : Fin 16) (n : Fin 256) (t : Fin 96) (k : Fin 128) :
    val_main_v45 (F := Ideal) x0 x1 x2 x3 x4 x5 x6 x7 x8 (ix4 b n t k) = outAt x0 x1 x2 x3 x4 x5 x6 x7 x8 b n t k := by
  rw [val_main_v45_apply, val_main_v42_apply, val_main_v39_apply, val_main_v34_apply, val_main_v33_apply,
    val_main_v38_apply, val_main_v37_apply, val_main_v36_apply, val_main_v35_apply, val_main_cst_3_apply,
    val_main_v41_apply, val_main_v40_apply, val_main_v44_apply, val_main_v43_apply, act_at]
  have e0 : idx_main_v33 (ix4 b n t k) = ix4 b n t (0 : Fin 1) := by same_index
  have e1 : idx_main_v38 (ix4 b n t k) = ix4 b n t (0 : Fin 1) := by same_index
  have e2 : idx_main_v40 (idx_main_v41 (ix4 b n t k)) = ix1 k := by same_index
  have e3 : idx_main_v43 (idx_main_v44 (ix4 b n t k)) = ix1 k := by same_index
  rw [e0, e1, e2, e3, mean_at, var_at]
  rfl

/-- The reference's result array is the specification's output array. -/
theorem result_eq :
    val_main_v45 (F := Ideal) x0 x1 x2 x3 x4 x5 x6 x7 x8 = outArray x0 x1 x2 x3 x4 x5 x6 x7 x8 := by
  funext i
  obtain ⟨b, n, t, k, rfl⟩ : ∃ (b : Fin 16) (n : Fin 256) (t : Fin 96) (k : Fin 128), i = ix4 b n t k :=
    ⟨i 0, i 1, i 2, i 3, eq_ix4 i⟩
  exact result_at x0 x1 x2 x3 x4 x5 x6 x7 x8 b n t k

end Cert.ReferenceIdeal.RefValue

end
-- ==== Proof.lean ====
/-
  A fused position-encoding layer against its jnp reference, over the extended reals.

  For a series x of shape 16 x 256 x 96 (batch entry, node, time sample) the layer projects each (batch entry, node)
  row through a 96 x 128 weight with a bias, passes the projection, the node's embedding and the time step's embedding
  through the three 128-row slabs of one 384 x 128 weight, adds a bias, rectifies, and normalises each row of 128
  channels by its mean and variance with a scale and a shift; the result has shape 16 x 256 x 96 x 128.

  The kernel does this over a 16 x 4 grid, one batch entry and 64 nodes at a time, with all the small operands held
  whole; the reference does it on whole arrays with broadcasts. At the exact instance both results are, index by index,
  one function of the nine arguments (`RowSpec`): the reference's run read at an index (`RefValue`), and the kernel's
  block read at an index (`BlockValue`) laid over the array (`ArrayValue`). The two differ only in the order in which
  the bias and the time term are added, and addition of extended reals is commutative and associative, so the
  finiteness of the inputs is never used. The idealization rewrote nothing, so there is nothing to preserve.
-/
import proofs.«143036_g19224273616920_pilotgen1_646_2_alg».proof.Defs
import proofs.«143036_g19224273616920_pilotgen1_646_2_alg».proof.Proof.Gen.Kernel
import proofs.«143036_g19224273616920_pilotgen1_646_2_alg».proof.Proof.Gen.Kernel.Skeleton
import proofs.«143036_g19224273616920_pilotgen1_646_2_alg».proof.Proof.Gen.Kernel.Launch
import proofs.«143036_g19224273616920_pilotgen1_646_2_alg».proof.Proof.Gen.Kernel.Points
import proofs.«143036_g19224273616920_pilotgen1_646_2_alg».proof.Proof.Gen.Kernel.Frame
import proofs.«143036_g19224273616920_pilotgen1_646_2_alg».proof.Proof.Gen.KernelIdeal
import proofs.«143036_g19224273616920_pilotgen1_646_2_alg».proof.Proof.Gen.KernelIdeal.Skeleton
import proofs.«143036_g19224273616920_pilotgen1_646_2_alg».proof.Proof.Gen.KernelIdeal.Launch
import proofs.«143036_g19224273616920_pilotgen1_646_2_alg».proof.Proof.Gen.KernelIdeal.Points
import proofs.«143036_g19224273616920_pilotgen1_646_2_alg».proof.Proof.Gen.KernelIdeal.Frame
import proofs.«143036_g19224273616920_pilotgen1_646_2_alg».proof.Proof.Gen.ReferenceIdeal
import proofs.«143036_g19224273616920_pilotgen1_646_2_alg».proof.Proof.Gen.Pre_finite_inputs
import proofs.«143036_g19224273616920_pilotgen1_646_2_alg».proof.Proof.Gen.KernelIdeal.Value
import proofs.«143036_g19224273616920_pilotgen1_646_2_alg».proof.Proof.Gen.ReferenceIdeal.Run
import proofs.«143036_g19224273616920_pilotgen1_646_2_alg».proof.Proof.Gen.ReferenceIdeal.Read
import proofs.«143036_g19224273616920_pilotgen1_646_2_alg».proof.Proof.ArrayValue
import proofs.«143036_g19224273616920_pilotgen1_646_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the nine arguments, end with the specification's output array of
    those arguments. -/
theorem algebraic : Cert.algebraic_KernelIdeal_ReferenceIdeal := by
  intro m ρ m' ρ' _ hagree
  refine ⟨fun c => Cert.KernelIdeal.ArrayValue.outArr m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v45_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
